-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S32x32 : Shape := ⟨2, ![32, 32]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S262144 .f32) (main_arg1 : FVec F S32x32 .f32) (main_arg2 : FVec F S32x32 .f32) : IVec S_ 1 :=
  let main_v0 : FVec F S262144 .f32 := Host.absf main_arg0
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S262144 : Shape := ⟨1, ![262144]⟩
abbrev S32x32 : Shape := ⟨2, ![32, 32]⟩
abbrev S262144x1 : Shape := ⟨2, ![262144, 1]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 9
  | .vmem => 6
  | .smem => 0
  | _ => 0

abbrev bufTy : (tb : Table) → Fin (tcTables nBuf tb) → BufTy
  | .hbm, ⟨0, _⟩ => ⟨S262144, .f32⟩
  | .hbm, ⟨1, _⟩ => ⟨S32x32, .f32⟩
  | .hbm, ⟨2, _⟩ => ⟨S32x32, .f32⟩
  | .hbm, ⟨3, _⟩ => ⟨S262144x1, .f32⟩
  | .hbm, ⟨4, _⟩ => ⟨S1x1024, .f32⟩
  | .hbm, ⟨5, _⟩ => ⟨S32x32, .f32⟩
  | .hbm, ⟨6, _⟩ => ⟨S1x1024, .f32⟩
  | .hbm, ⟨7, _⟩ => ⟨S262144x1, .f32⟩
  | .hbm, ⟨8, _⟩ => ⟨S262144, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144_S262144x1 : S262144.ShapeCasts S262144x1
  shapeCasts_S32x32_S1x1024 : S32x32.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S262144x1_S262144 : S262144x1.ShapeCasts S262144
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S262144x1.size a
  hwx0_0 : ∀ i : grid0.Coords, EltTy.bits .f32 = 32 ∨ (Rect.block (s := S262144x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S262144x1.size a
  hwx0_3 : ∀ i : grid0.Coords, EltTy.bits .f32 = 32 ∨ (Rect.block (s := S262144x1) S1024x1.size (cc0_transform_3 i) (hinb0_3 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144 : Shape := ⟨1, ![262144]⟩
abbrev S32x32 : Shape := ⟨2, ![32, 32]⟩
abbrev S262144x1x1 : Shape := ⟨3, ![262144, 1, 1]⟩
abbrev S1x32x32 : Shape := ⟨3, ![1, 32, 32]⟩
abbrev S262144x32x32 : Shape := ⟨3, ![262144, 32, 32]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S262144, .f32⟩
  | .hbm, ⟨1, _⟩ => ⟨S32x32, .f32⟩
  | .hbm, ⟨2, _⟩ => ⟨S32x32, .f32⟩
  | .hbm, ⟨3, _⟩ => ⟨S262144x1x1, .f32⟩
  | .hbm, ⟨4, _⟩ => ⟨S1x32x32, .f32⟩
  | .hbm, ⟨5, _⟩ => ⟨S262144x32x32, .f32⟩
  | .hbm, ⟨6, _⟩ => ⟨S262144x32x32, .f32⟩
  | .hbm, ⟨7, _⟩ => ⟨S262144x32x32, .f32⟩
  | .hbm, ⟨8, _⟩ => ⟨S32x32, .f32⟩
  | .hbm, ⟨9, _⟩ => ⟨S1x32x32, .f32⟩
  | .hbm, ⟨10, _⟩ => ⟨S262144x32x32, .f32⟩
  | .hbm, ⟨11, _⟩ => ⟨S262144x32x32, .f32⟩
  | .hbm, ⟨12, _⟩ => ⟨S262144x32x32, .f32⟩
  | .hbm, ⟨13, _⟩ => ⟨S_, .f32⟩
  | .hbm, ⟨14, _⟩ => ⟨S262144, .f32⟩
  | .hbm, ⟨15, _⟩ => ⟨S262144, .f32⟩
  | .hbm, ⟨16, _⟩ => ⟨S262144, .f32⟩
  | .hbm, ⟨17, _⟩ => ⟨S262144, .i1⟩
  | .hbm, ⟨18, _⟩ => ⟨S262144, .f32⟩
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S262144_S262144x1x1_0 : S262144.BroadcastsInDim S262144x1x1 (![0] : Fin 1 → Fin S262144x1x1.rank)
  bcast_S32x32_S1x32x32_1_2 : S32x32.BroadcastsInDim S1x32x32 (![1, 2] : Fin 2 → Fin S1x32x32.rank)
  bcast_S262144x1x1_S262144x32x32_0_1_2 : S262144x1x1.BroadcastsInDim S262144x32x32 (![0, 1, 2] : Fin 3 → Fin S262144x32x32.rank)
  bcast_S1x32x32_S262144x32x32_0_1_2 : S1x32x32.BroadcastsInDim S262144x32x32 (![0, 1, 2] : Fin 3 → Fin S262144x32x32.rank)
  reducesTo_S262144x32x32_S262144_d1_2 : S262144x32x32.ReducesTo [1, 2] S262144
  h_S_ : 0 < S_.numel

variable [Facts₀]

class Facts : Prop extends Facts₀ where

variable [Facts]
-- ==== Proof.Spec.lean ====
/-
  The function both programs compute, and the two re-indexings of its sum.

  For one sample `x` and the 32 × 32 parameter tables `fd` (centres) and `sg` (widths) the result is
      exp (−(∑ a, ∑ b, √((x − fd a b) / (sg a b · sg a b))))
  on the extended reals: the subtraction, quotient, root and exponential are the ideal instance's
  (with its conventions at the corners: a negative radicand, a zero or infinite divisor), and the sum
  is the extended reals' commutative, associative sum, so the order in which the 1024 terms are added
  does not matter. The kernel adds them along the 1024 lanes of the flattened tables; the reference
  adds them over the two table axes: `sum_lanes` and `sum_kept` bring both to the double sum.
-/
import Idealize.ShloMosaic.PureOps.Ideal
import Idealize.ShloMosaic.PureOps.Ideal.Laws
import Idealize.ShloMosaic.Lib.ValueIdx

noncomputable section

namespace Cert.Fuzzy

open Idealize.ShloMosaic Idealize.ShloMosaic.ValueIdx

/-- One parameter's contribution to a sample's exponent: √((x − p) / q). -/
def term (x p q : EReal) : EReal := Ideal.sqrt (Ideal.div (x - p) q)

/-- A sample's membership value: exp of minus the sum of the 32 × 32 contributions, the divisor the
    width squared. -/
def member (fd sg : (⟨2, ![32, 32]⟩ : Shape).Idx → EReal) (x : EReal) : EReal :=
  Ideal.exp (-(∑ a : Fin 32, ∑ b : Fin 32, term x (fd (ix2 a b)) (sg (ix2 a b) * sg (ix2 a b))))

/-- The whole result: every sample's membership value. -/
def result (x : (⟨1, ![262144]⟩ : Shape).Idx → EReal) (fd sg : (⟨2, ![32, 32]⟩ : Shape).Idx → EReal) :
    (⟨1, ![262144]⟩ : Shape).Idx → EReal :=
  fun i => member fd sg (x i)

/-- No extended real differs from itself: the comparison both programs use to detect a NaN (the
    unordered "not equal" on the host, the ordered one in the kernel; one predicate here, nothing
    being unordered) answers 0 at every value. -/
theorem cmp_une_self (e : EReal) : Ideal.cmp .une e e = 0#1 := by simp [Ideal.cmp]
theorem cmp_one_self (e : EReal) : Ideal.cmp .one e e = 0#1 := by simp [Ideal.cmp]

/-- Lane `k` of a flattened 32 × 32 table is its entry (k / 32, k % 32); conversely entry (a, b) sits in
    lane 32 a + b. -/
def lane : Fin 32 × Fin 32 ≃ Fin 1024 where
  toFun p := ⟨32 * p.1.val + p.2.val, by have := p.1.isLt; have := p.2.isLt; omega⟩
  invFun k := (⟨k.val / 32, by have := k.isLt; omega⟩, ⟨k.val % 32, Nat.mod_lt _ (by decide)⟩)
  left_inv p := by
    have h1 := p.1.isLt; have h2 := p.2.isLt
    refine Prod.ext (Fin.ext ?_) (Fin.ext ?_)
    · show (32 * p.1.val + p.2.val) / 32 = p.1.val; omega
    · show (32 * p.1.val + p.2.val) % 32 = p.2.val; omega
  right_inv k := by
    refine Fin.ext ?_
    show 32 * (k.val / 32) + k.val % 32 = k.val; omega

/-- A sum over the 1024 lanes is the double sum over the table's rows and columns. -/
theorem sum_lanes {M : Type*} [AddCommMonoid M] (g : Fin 1024 → M) :
    ∑ k : Fin 1024, g k = ∑ a : Fin 32, ∑ b : Fin 32, g (lane (a, b)) := by
  rw [← Equiv.sum_comp lane g, Fintype.sum_prod_type]

/-- A sum over the indices of a [262144, 32, 32] array that keep sample `j` when the two table axes
    are dropped is the double sum over those two axes at sample `j`. -/
theorem sum_kept {M : Type*} [AddCommMonoid M]
    (h : (⟨3, ![262144, 32, 32]⟩ : Shape).ReducesTo [1, 2] ⟨1, ![262144]⟩)
    (f : (⟨3, ![262144, 32, 32]⟩ : Shape).Idx → M) (n : Fin 262144) :
    ∑ i ∈ Finset.univ.filter (fun i => h.drop i = ix1 n), f i
      = ∑ a : Fin 32, ∑ b : Fin 32, f (ix3 n a b) := by
  rw [← Fintype.sum_prod_type (f := fun p : Fin 32 × Fin 32 => f (ix3 n p.1 p.2))]
  have back : ∀ i : (⟨3, ![262144, 32, 32]⟩ : Shape).Idx, h.drop i = ix1 n → ix3 n (i 1 : Fin 32) (i 2 : Fin 32) = i := by
    intro i hi
    have h0 : ((h.drop i 0 : Fin _) : Nat) = (i 0 : Nat) := Shape.ReducesTo.drop_apply_val_of_eq h i 0 0
    have h1 : ((h.drop i 0 : Fin _) : Nat) = n.val := by rw [hi]
    funext a
    match a with
    | ⟨0, _⟩ => exact Fin.ext (h1.symm.trans h0)
    | ⟨1, _⟩ => rfl
    | ⟨2, _⟩ => rfl
  refine Finset.sum_nbij' (fun i => ((i 1 : Fin 32), (i 2 : Fin 32))) (fun p => ix3 n p.1 p.2) ?_ ?_ ?_ ?_ ?_
  · intro i _; exact Finset.mem_univ _
  · intro p _
    rw [Finset.mem_filter]
    refine ⟨Finset.mem_univ _, funext fun b => Fin.ext ?_⟩
    match b with
    | ⟨0, _⟩ => exact Shape.ReducesTo.drop_apply_val_of_eq h (ix3 n p.1 p.2) 0 0
  · intro i hi
    exact back i (Finset.mem_filter.mp hi).2
  · intro p _; rfl
  · intro i hi
    exact congrArg f (back i (Finset.mem_filter.mp hi).2).symm

end Cert.Fuzzy

end
-- ==== Proof.Body.lean ====
/-
  What the kernel body stores, read entry by entry.

  At a grid point the body holds a column of 1024 samples `x0` ([1024, 1]) and the two flattened
  parameter rows `x1` (centres) and `x2` (squared widths), each [1, 1024]. It broadcasts all three
  to [1024, 1024], forms √((x0 r − x1 k) / x2 k) at (r, k), sums row r over its 1024 lanes, takes
  exp (0 − sum), and keeps the exponential wherever it equals itself (everywhere, on the extended
  reals). So row r of the stored column is exp (−∑ k, √((x0 r − x1 k) / x2 k)).
-/
import proofs.«123090_j13091060318828_1_alg».proof.Proof.Gen.KernelIdeal.Skeleton
import proofs.«123090_j13091060318828_1_alg».proof.Proof.Spec
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx

/-- A [1024, 1] column broadcast to [1024, 1024] reads, at (r, k), the column's row r. -/
theorem bcast_col {α : Type} (v : S1024x1.Idx → α) (h : S1024x1.Broadcasts S1024x1024) (r k : Fin 1024) :
    broadcastTo S1024x1024 v h (ix2 r k) = v (ix2 r (0 : Fin 1)) := by
  refine broadcastTo_apply v h (ix2 r k) (ix2 r (0 : Fin 1)) fun ax => ?_
  match ax with
  | ⟨0, _⟩ => show r.val = if (1024 : Nat) = 1 then 0 else r.val; rw [if_neg (by decide)]
  | ⟨1, _⟩ => show 0 = if (1 : Nat) = 1 then 0 else k.val; rw [if_pos rfl]

/-- A [1024] vector viewed as a [1024, 1] column reads, at (r, 0), the vector's entry r. -/
theorem cast_col {α : Type} (v : S1024.Idx → α) (h : S1024.ShapeCasts S1024x1) (r : Fin 1024) :
    shapeCast S1024x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- The sum over the lanes of a [1024, 1024] array, at row r, is the sum of that row's entries. -/
theorem lane_sum (v : FVec Ideal S1024x1024 .f32) (h : S1024x1024.Reduces [1] S1024) (hφ : FKind.Formats .f32)
    (hacc : (0x00000000#32 : BitVec 32) = 0x00000000#32) (r : Fin 1024) :
    multiReduction .add [1] S1024 v 0x00000000#32 h hφ hacc (ix1 r) = ∑ k : Fin 1024, v (ix2 r k) := by
  refine (Ideal.multiReduction_add_single v 0x00000000#32 h hφ hacc (ix1 r)).trans ?_
  refine Finset.sum_congr rfl fun k _ => congrArg v ?_
  funext c
  apply Fin.ext
  match c with
  | ⟨0, _⟩ => rfl
  | ⟨1, _⟩ => rfl

/-- Entry (r, k) of the array of roots: sample r's contribution from lane k. -/
theorem roots_apply (a : FVec Ideal S1024x1 .f32) (b c : FVec Ideal S1x1024 .f32)
    (ha : S1024x1.Broadcasts S1024x1024) (hb : S1x1024.Broadcasts S1024x1024) (r k : Fin 1024) :
    sqrt (divf (subf (broadcastTo S1024x1024 a ha) (broadcastTo S1024x1024 b hb)) (broadcastTo S1024x1024 c hb)) (ix2 r k)
      = Cert.Fuzzy.term (a (ix2 r (0 : Fin 1))) (b (ix2 (0 : Fin 1) k)) (c (ix2 (0 : Fin 1) k)) := by
  show Ideal.sqrt (Ideal.div (broadcastTo S1024x1024 a ha (ix2 r k) - broadcastTo S1024x1024 b hb (ix2 r k))
      (broadcastTo S1024x1024 c hb (ix2 r k))) = _
  rw [bcast_col, broadcastTo_1b_ab_apply, broadcastTo_1b_ab_apply]
  rfl

/-- Row r of the column the body stores. -/
theorem pay_apply (x0 : Vec Ideal S1024x1 .f32) (x1 x2 : Vec Ideal S1x1024 .f32) (r : Fin 1024) :
    k0_pay1 (F := Ideal) x0 x1 x2 (ix2 r (0 : Fin 1))
      = Ideal.exp (-(∑ k : Fin 1024, Cert.Fuzzy.term (x0 (ix2 r (0 : Fin 1))) (x1 (ix2 (0 : Fin 1) k)) (x2 (ix2 (0 : Fin 1) k)))) := by
  unfold k0_pay1
  simp only [shapeCast_self]
  rw [select_apply, cmpf_apply]
  show Scalar.select (Ideal.cmp .one _ _) _ _ = _
  rw [Cert.Fuzzy.cmp_one_self, select_zero]
  show Ideal.exp (Ideal.ofBits .f32 0x00000000#32 - shapeCast S1024x1 _ shapeCasts_S1024_S1024x1 (ix2 r (0 : Fin 1))) = _
  rw [Ideal.ofBits_zero_f32, zero_sub, cast_col, lane_sum]
  exact congrArg (fun s => Ideal.exp (-s)) (Finset.sum_congr rfl fun k _ => roots_apply x0 x1 x2 _ _ r k)

/-- When the two rows are the flattened 32 × 32 tables of centres and of squared widths, row r of the
    stored column is the membership value of sample r: the lane sum is the tables' double sum. -/
theorem pay_member (x0 : Vec Ideal S1024x1 .f32) (x1 x2 : Vec Ideal S1x1024 .f32)
    (fd sg : (⟨2, ![32, 32]⟩ : Shape).Idx → EReal)
    (h1 : ∀ a b : Fin 32, x1 (ix2 (0 : Fin 1) (Cert.Fuzzy.lane (a, b))) = fd (ix2 a b))
    (h2 : ∀ a b : Fin 32, x2 (ix2 (0 : Fin 1) (Cert.Fuzzy.lane (a, b))) = sg (ix2 a b) * sg (ix2 a b))
    (r : Fin 1024) :
    k0_pay1 (F := Ideal) x0 x1 x2 (ix2 r (0 : Fin 1)) = Cert.Fuzzy.member fd sg (x0 (ix2 r (0 : Fin 1))) := by
  rw [pay_apply, Cert.Fuzzy.sum_lanes]
  unfold Cert.Fuzzy.member
  simp only [h1, h2]

end Cert.KernelIdeal.Body

end
-- ==== Proof.KernelValue.lean ====
/-
  The kernel program's result array.

  @main views the sample vector as a [262144, 1] column and flattens the centre table and the
  squared-width table to [1, 1024] rows; the pallas_call's point t takes rows 1024 t … 1024 t + 1023 of
  the column and both whole rows, and writes back, into the same rows of a [262144, 1] output column,
  each sample's membership value (`Body.pay_member`). The 256 points' blocks tile the output column,
  so after the run it holds every sample's membership value; the final reshape to [262144] reads it
  back as a vector.
-/
import proofs.«123090_j13091060318828_1_alg».proof.Proof.Gen.KernelIdeal.Frame
import proofs.«123090_j13091060318828_1_alg».proof.Proof.Body
import Idealize.ShloMosaic.Lib.Pipeline.Value
import Idealize.ShloMosaic.Lib.StableHlo.Run
import Idealize.ShloMosaic.Lib.Tactic

noncomputable section

namespace Cert.KernelIdeal.KerValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The three arguments on core `c`, at their literal types: the samples, the centres, the widths. -/
abbrev xs (c : Dev nD) : S262144.Idx → EReal := m ((c : Thread nD τ).loc main_arg0)
abbrev fd (c : Dev nD) : S32x32.Idx → EReal := m ((c : Thread nD τ).loc main_arg1)
abbrev sg (c : Dev nD) : S32x32.Idx → EReal := m ((c : Thread nD τ).loc main_arg2)

/-- The sample column: the sample vector viewed [262144, 1]. -/
theorem V_samples (c : Dev nD) :
    (V m c main_v0 : S262144x1.Idx → EReal) = shapeCast S262144x1 (xs m c) shapeCasts_S262144_S262144x1 := by
  show StableHlo.after hostOps0 (fun b => m (c, b)) (Proc.devRef .tc main_v0) = _
  after_results
  rfl

/-- The centre row: the centre table flattened. -/
theorem V_centres (c : Dev nD) :
    (V m c main_v1 : S1x1024.Idx → EReal) = shapeCast S1x1024 (fd m c) shapeCasts_S32x32_S1x1024 := by
  show StableHlo.after hostOps0 (fun b => m (c, b)) (Proc.devRef .tc main_v1) = _
  after_results
  rfl

/-- The squared-width row: the width table squared entry by entry, flattened. -/
theorem V_widths (c : Dev nD) :
    (V m c main_v3 : S1x1024.Idx → EReal)
      = shapeCast S1x1024 (mulf (F := Ideal) (φ := .f32) (sg m c) (sg m c)) shapeCasts_S32x32_S1x1024 := by
  show StableHlo.after hostOps0 (fun b => m (c, b)) (Proc.devRef .tc main_v3) = _
  after_results
  rfl

/-- Row n of the sample column is sample n. -/
theorem column_apply (x : S262144.Idx → EReal) (n : Fin 262144) :
    shapeCast S262144x1 x shapeCasts_S262144_S262144x1 (ix2 n (0 : Fin 1)) = x (ix1 n) :=
  shapeCast_apply x shapeCasts_S262144_S262144x1 (ix2 n (0 : Fin 1)) (ix1 n) (by
    rw [Shape.rowMajor_val_one, Shape.rowMajor_val_two]
    show n.val = n.val * 1 + 0
    omega)

/-- Lane 32 a + b of a flattened 32 × 32 table is its entry (a, b). -/
theorem row_apply (x : S32x32.Idx → EReal) (a b : Fin 32) :
    shapeCast S1x1024 x shapeCasts_S32x32_S1x1024 (ix2 (0 : Fin 1) (Cert.Fuzzy.lane (a, b))) = x (ix2 a b) :=
  shapeCast_apply x shapeCasts_S32x32_S1x1024 (ix2 (0 : Fin 1) (Cert.Fuzzy.lane (a, b))) (ix2 a b) (by
    rw [Shape.rowMajor_val_two, Shape.rowMajor_val_two]
    show a.val * 32 + b.val = 0 * 1024 + (32 * a.val + b.val)
    omega)

/-! ## The windows' blocks -/

/-- The printed index maps over the grid: the sample window and the output window are at block row t,
    the two parameter rows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The output column: row n holds sample n's membership value. -/
def column (c : Dev nD) : S262144x1.Idx → EReal := fun i =>
  Cert.Fuzzy.member (fd m c) (sg m c) (shapeCast S262144x1 (xs m c) shapeCasts_S262144_S262144x1 i)

/-- The centre row's block at any point is the whole row: lane 32 a + b is centre (a, b). -/
theorem centres_blk (c : Dev nD) (t : Fin cfg0.N) (a b : Fin 32) :
    (iblk m c 1 t : Vec Ideal S1x1024 .f32) (ix2 (0 : Fin 1) (Cert.Fuzzy.lane (a, b))) = fd m c (ix2 a b) := by
  obtain ⟨e0, e1, e2, e3, e4, e5, e6, e7⟩ := idx_facts t
  unfold iblk
  rw [View.read_apply]
  show V m c main_v1 (((cfg0.win 1).blk t).view.emb (ix2 (0 : Fin 1) (Cert.Fuzzy.lane (a, b)))) = _
  have hk : ((cfg0.win 1).blk t).view.emb (ix2 (0 : Fin 1) (Cert.Fuzzy.lane (a, b))) = (ix2 (0 : Fin 1) (Cert.Fuzzy.lane (a, b)) : S1x1024.Idx) := by
    funext ax; apply Fin.ext
    match ax with
    | ⟨0, _⟩ => show win0_1.index t (0 : Fin 2) * 1 + 1 * 0 = 0; rw [e2]
    | ⟨1, _⟩ => show win0_1.index t (1 : Fin 2) * 1024 + 1 * (32 * a.val + b.val) = 32 * a.val + b.val; rw [e3]; omega
  rw [hk, V_centres, row_apply]

/-- The squared-width row's block at any point is the whole row: lane 32 a + b is width (a, b) squared. -/
theorem widths_blk (c : Dev nD) (t : Fin cfg0.N) (a b : Fin 32) :
    (iblk m c 2 t : Vec Ideal S1x1024 .f32) (ix2 (0 : Fin 1) (Cert.Fuzzy.lane (a, b)))
      = sg m c (ix2 a b) * sg m c (ix2 a b) := by
  obtain ⟨e0, e1, e2, e3, e4, e5, e6, e7⟩ := idx_facts t
  unfold iblk
  rw [View.read_apply]
  show V m c main_v3 (((cfg0.win 2).blk t).view.emb (ix2 (0 : Fin 1) (Cert.Fuzzy.lane (a, b)))) = _
  have hk : ((cfg0.win 2).blk t).view.emb (ix2 (0 : Fin 1) (Cert.Fuzzy.lane (a, b))) = (ix2 (0 : Fin 1) (Cert.Fuzzy.lane (a, b)) : S1x1024.Idx) := by
    funext ax; apply Fin.ext
    match ax with
    | ⟨0, _⟩ => show win0_2.index t (0 : Fin 2) * 1 + 1 * 0 = 0; rw [e4]
    | ⟨1, _⟩ => show win0_2.index t (1 : Fin 2) * 1024 + 1 * (32 * a.val + b.val) = 32 * a.val + b.val; rw [e5]; omega
  rw [hk, V_widths, row_apply]
  rfl

/-- Row r of the sample window's block at point t is the sample column at the row the output window's
    block has there: the two windows move together. -/
theorem samples_blk (c : Dev nD) (t : Fin cfg0.N) (r : Fin 1024) :
    (iblk m c 0 t : Vec Ideal S1024x1 .f32) (ix2 r (0 : Fin 1))
      = shapeCast S262144x1 (xs m c) shapeCasts_S262144_S262144x1 (((cfg0.win 3).blk t).view.emb (ix2 r (0 : Fin 1))) := by
  obtain ⟨e0, e1, e2, e3, e4, e5, e6, e7⟩ := idx_facts t
  unfold iblk
  rw [View.read_apply]
  show V m c main_v0 (((cfg0.win 0).blk t).view.emb (ix2 r (0 : Fin 1))) = _
  have hk : ((cfg0.win 0).blk t).view.emb (ix2 r (0 : Fin 1)) = ((cfg0.win 3).blk t).view.emb (ix2 r (0 : Fin 1)) := by
    funext ax; apply Fin.ext
    match ax with
    | ⟨0, _⟩ => show win0_0.index t (0 : Fin 2) * 1024 + 1 * r.val = win0_3.index t (0 : Fin 2) * 1024 + 1 * r.val; rw [e0, e6]
    | ⟨1, _⟩ => show win0_0.index t (1 : Fin 2) * 1 + 1 * 0 = win0_3.index t (1 : Fin 2) * 1 + 1 * 0; rw [e1, e7]
  rw [hk, V_samples]

/-! ## What a point writes back, and the array after the run -/

/-- Point t writes back block t of the output column. -/
theorem flushed_eq (c : Dev nD) (t : Fin cfg0.N) :
    (dats m 0 c).flushed 3 t = ((cfg0.win 3).blk t).view.read (Elt Ideal) (column m c) := by
  show (cfg0.win 3).cut (grid0.coords t) ((dats m 0 c).after 3 t) = _
  rw [after0_3]
  unfold out0_3
  rw [View.canon_unit_zero hz]
  simp only [View.ld_unit_zero (S := S1024x1) hz, View.ld_unit_zero (S := S1x1024) hz]
  funext y
  obtain ⟨r, rfl⟩ : ∃ r : Fin 1024, y = ix2 r (0 : Fin 1) :=
    ⟨⟨(y 0).val, (y 0).isLt⟩, funext fun ax => Fin.ext (by
      match ax with
      | ⟨0, _⟩ => rfl
      | ⟨1, _⟩ => show (y 1).val = 0; have h1 : (y 1).val < 1 := (y 1).isLt; omega)⟩
  show k0_pay1 (F := Ideal) (iblk m c 0 t) (iblk m c 1 t) (iblk m c 2 t) (ix2 r (0 : Fin 1))
    = column m c (((cfg0.win 3).blk t).view.emb (ix2 r (0 : Fin 1)))
  refine (Cert.KernelIdeal.Body.pay_member (iblk m c 0 t) (iblk m c 1 t) (iblk m c 2 t)
    (fd m c) (sg m c) (centres_blk m c t) (widths_blk m c t) r).trans ?_
  unfold column
  rw [samples_blk]

/-- An index of the output column is in point t's block iff each coordinate is in the block's range. -/
theorem mem_blk (t : Fin cfg0.N) (i : S262144x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v4).slice (win0_3.rect t)).set ↔ _
  rw [View.set_slice_whole, Rect.mem_set_unit]
  exact Iff.rfl

/-- Row n of the output column is in the block of point n / 1024: the 256 blocks of 1024 rows tile it. -/
theorem covered (i : S262144x1.Idx) :
    ∃ t : Fin cfg0.N, (cfg0.win 3).flush t = true ∧ i ∈ ((cfg0.win 3).blk t).view.set := by
  have hN : cfg0.N = 256 := N_0
  have hi0 : (i 0).val < 262144 := (i 0).isLt
  have hi1 : (i 1).val < 1 := (i 1).isLt
  obtain ⟨t, ht⟩ : ∃ t : Fin cfg0.N, t.val = (i 0).val / 1024 := ⟨⟨(i 0).val / 1024, by omega⟩, rfl⟩
  obtain ⟨e0, e1, e2, e3, e4, e5, e6, e7⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1 ≤ (i 1).val ∧ (i 1).val < win0_3.index t (1 : Fin 2) * 1 + 1
    rw [e7]; omega

/-- After the run the output array is the output column. -/
theorem final (c : Dev nD) : (dats m 0 c).arrAt 3 cfg0.N = column m c :=
  (dats m 0 c).arrAt_eq_of_cover 3 (column m c) (fun t _ => flushed_eq m c t) covered

/-! ## The result vector and the run -/

/-- The program's result: the output column read back as a vector, every sample's membership value. -/
theorem tail_eq (c : Dev nD) :
    (Pipeline.afterTail₀ cfgs (dats m) 0 (V0 m) [hostOps1] c main_v5 : S262144.Idx → EReal)
      = Cert.Fuzzy.result (xs m c) (fd m c) (sg m c) := by
  unfold Pipeline.afterTail₀
  show StableHlo.after hostOps1 _ (Proc.devRef .tc main_v5) = _
  after_results
  have hw : (Pipeline.withArrays (cfgs 0).spec c (V0 m c) (fun w => (dats m 0 c).arrAt w (cfgs 0).N) (Proc.devRef .tc main_v4)
      : S262144x1.Idx → EReal) = column m c :=
    (Pipeline.withArrays_arr spec0 winFacts0.arr_inj c _ _ 3).trans (final m c)
  funext i
  obtain ⟨n, rfl⟩ : ∃ n : Fin 262144, i = ix1 n := ⟨i 0, eq_ix1 i⟩
  show shapeCast S262144 (Pipeline.withArrays (cfgs 0).spec c (V0 m c) (fun w => (dats m 0 c).arrAt w (cfgs 0).N)
      (Proc.devRef .tc main_v4) : S262144x1.Idx → EReal) shapeCasts_S262144x1_S262144 (ix1 n) = _
  rw [hw, shapeCast_apply (column m c) shapeCasts_S262144x1_S262144 (ix1 n) (ix2 n (0 : Fin 1)) (by
    rw [Shape.rowMajor_val_two, Shape.rowMajor_val_one]
    show n.val * 1 + 0 = n.val
    omega)]
  unfold column Cert.Fuzzy.result
  rw [column_apply]

/-- The run, read: the result vector at every sample's membership value, the arguments unchanged. -/
theorem run : θ_run defs (onTc (τ := τ) (main (F := Ideal))) ⟨m, fun _ => 0, ρ⟩ fun r => ∀ c : Dev nD,
      r.2.mem ((c : Thread nD τ).loc main_v5) = Cert.Fuzzy.result (xs m c) (fd m c) (sg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.Reference.lean ====
/-
  The reference's result, read index by index, is the membership function of `Spec`.

  The reference broadcasts the sample vector and the two 32 × 32 tables to [262144, 32, 32], forms
  √((x − fd) / (sg · sg)) entry by entry, sums over the two table axes from the initial value 0,
  negates, exponentiates, and keeps the exponential wherever it equals itself — which on the
  extended reals is everywhere, so the `where` always selects the exponential.
-/
import proofs.«123090_j13091060318828_1_alg».proof.Proof.Gen.ReferenceIdeal.Run
import proofs.«123090_j13091060318828_1_alg».proof.Proof.Gen.ReferenceIdeal.Read
import proofs.«123090_j13091060318828_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- Entry (n, a, b) of the broadcast sample array is sample n. -/
theorem sample_idx (n : Fin 262144) (a b : Fin 32) : idx_main_v0 (idx_main_v2 (ix3 n a b)) = ix1 n :=
  funext fun d => Fin.ext (by match d with | ⟨0, _⟩ => rfl)

/-- Entry (n, a, b) of the broadcast centre table is centre (a, b). -/
theorem centre_idx (n : Fin 262144) (a b : Fin 32) : idx_main_v1 (idx_main_v3 (ix3 n a b)) = ix2 a b :=
  funext fun d => Fin.ext (by match d with | ⟨0, _⟩ => rfl | ⟨1, _⟩ => rfl)

/-- Entry (n, a, b) of the broadcast squared-width table is squared width (a, b). -/
theorem width_idx (n : Fin 262144) (a b : Fin 32) : idx_main_v6 (idx_main_v7 (ix3 n a b)) = ix2 a b :=
  funext fun d => Fin.ext (by match d with | ⟨0, _⟩ => rfl | ⟨1, _⟩ => rfl)

/-- Entry (n, a, b) of the array of roots is sample n's contribution from parameter (a, b). -/
theorem root_apply (x0 : (⟨S262144, .f32⟩ : BufTy).Contents (Elt Ideal)) (x1 x2 : (⟨S32x32, .f32⟩ : BufTy).Contents (Elt Ideal))
    (n : Fin 262144) (a b : Fin 32) :
    val_main_v9 (F := Ideal) x0 x1 x2 (ix3 n a b)
      = Cert.Fuzzy.term (x0 (ix1 n)) (x1 (ix2 a b)) (x2 (ix2 a b) * x2 (ix2 a b)) := by
  rw [val_main_v9_apply, val_main_v8_apply, val_main_v4_apply, val_main_v2_apply, val_main_v0_apply,
    val_main_v3_apply, val_main_v1_apply, val_main_v7_apply, val_main_v6_apply, val_main_v5_apply,
    sample_idx, centre_idx, width_idx]
  rfl

/-- The sum over the two table axes, at sample n: the double sum of the contributions (the initial
    value is 0). -/
theorem sum_apply (x0 : (⟨S262144, .f32⟩ : BufTy).Contents (Elt Ideal)) (x1 x2 : (⟨S32x32, .f32⟩ : BufTy).Contents (Elt Ideal))
    (n : Fin 262144) :
    val_main_v10 (F := Ideal) x0 x1 x2 (ix1 n)
      = ∑ a : Fin 32, ∑ b : Fin 32, Cert.Fuzzy.term (x0 (ix1 n)) (x1 (ix2 a b)) (x2 (ix2 a b) * x2 (ix2 a b)) := by
  show Ideal.ofBits .f32 0x00000000#32
      + ∑ i ∈ Finset.univ.filter (fun i => reducesTo_S262144x32x32_S262144_d1_2.drop i = ix1 n), val_main_v9 (F := Ideal) x0 x1 x2 i = _
  rw [Ideal.ofBits_zero_f32, zero_add, Cert.Fuzzy.sum_kept]
  exact Finset.sum_congr rfl fun a _ => Finset.sum_congr rfl fun b _ => root_apply x0 x1 x2 n a b

/-- The reference's result is the membership function of its three arguments. -/
theorem result_eq (x0 : (⟨S262144, .f32⟩ : BufTy).Contents (Elt Ideal)) (x1 x2 : (⟨S32x32, .f32⟩ : BufTy).Contents (Elt Ideal)) :
    val_main_v14 (F := Ideal) x0 x1 x2 = Cert.Fuzzy.result x0 x1 x2 := by
  funext i
  obtain ⟨n, rfl⟩ : ∃ n : Fin 262144, i = ix1 n := ⟨i 0, eq_ix1 i⟩
  rw [val_main_v14_apply, val_main_v13_apply, val_main_v12_apply, val_main_v11_apply, sum_apply]
  show Scalar.select (Ideal.cmp .une _ _) _ _ = _
  rw [Cert.Fuzzy.cmp_une_self, select_zero]
  rfl

end Cert.ReferenceIdeal.RefValue

end
-- ==== Proof.lean ====
/-
  A fuzzy-membership layer: for each of 262144 scalar samples x, the value
      exp (−∑ over the 32 × 32 parameters (a, b) of √((x − fd a b) / (sg a b)²)),
  kept unless it is a NaN (then the sample itself is returned).

  The kernel flattens the two parameter tables to 1024 lanes, takes 1024 samples per grid point, and
  sums each sample's 1024 roots along the lanes; the reference broadcasts everything to
  [262144, 32, 32] and sums over the two table axes. On the extended reals the two programs are the
  same function: entry by entry the same subtraction, quotient (the kernel's and the host's are one
  operation there), root and exponential; the two sums add the same 1024 terms, and a sum of extended
  reals does not depend on the order or grouping of its terms; 0 − s and −(0 + s) are both −s; and the
  NaN test "e ≠ e" is false at every extended real whether it is read ordered (kernel) or unordered
  (reference), so both selects keep the exponential. No finiteness of the inputs is used.

  The frames of the two kernel programs are the generated ones; the reference's is its generated run
  with the result dropped. The idealization rewrote nothing, so `preserves` is trivial.
-/
import proofs.«123090_j13091060318828_1_alg».proof.Defs
import proofs.«123090_j13091060318828_1_alg».proof.Proof.Gen.Kernel
import proofs.«123090_j13091060318828_1_alg».proof.Proof.Gen.Kernel.Skeleton
import proofs.«123090_j13091060318828_1_alg».proof.Proof.Gen.Kernel.Launch
import proofs.«123090_j13091060318828_1_alg».proof.Proof.Gen.Kernel.Points
import proofs.«123090_j13091060318828_1_alg».proof.Proof.Gen.Kernel.Frame
import proofs.«123090_j13091060318828_1_alg».proof.Proof.Gen.KernelIdeal
import proofs.«123090_j13091060318828_1_alg».proof.Proof.Gen.KernelIdeal.Skeleton
import proofs.«123090_j13091060318828_1_alg».proof.Proof.Gen.KernelIdeal.Launch
import proofs.«123090_j13091060318828_1_alg».proof.Proof.Gen.KernelIdeal.Points
import proofs.«123090_j13091060318828_1_alg».proof.Proof.Gen.KernelIdeal.Frame
import proofs.«123090_j13091060318828_1_alg».proof.Proof.Gen.ReferenceIdeal
import proofs.«123090_j13091060318828_1_alg».proof.Proof.Gen.ReferenceIdeal.Run
import proofs.«123090_j13091060318828_1_alg».proof.Proof.Gen.ReferenceIdeal.Read
import proofs.«123090_j13091060318828_1_alg».proof.Proof.Gen.Pre_finite_inputs
import proofs.«123090_j13091060318828_1_alg».proof.Proof.Spec
import proofs.«123090_j13091060318828_1_alg».proof.Proof.Body
import proofs.«123090_j13091060318828_1_alg».proof.Proof.KernelValue
import proofs.«123090_j13091060318828_1_alg».proof.Proof.Reference
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with every sample's membership
    value in their result: the kernel by its blocks (`KerValue.run`), the reference entry by entry
    (`RefValue.result_eq`). -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
